-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x500000 32 := broadcastInDim S2x500000 ![] bcast_S_S2x500000 main_c_14
  let main_v40 : IVec S2x500000 1 := cmpi .sge main_arg1 main_v39
  let main_c_15 : IVec S_ 32 := constantI S_ 32 100000#32
  let main_v41 : IVec S2x500000 32 := broadcastInDim S2x500000 ![] bcast_S_S2x500000 main_c_15
  let main_v42 : IVec S2x500000 1 := cmpi .slt main_arg1 main_v41
  let main_v43 : IVec S2x500000 1 := andi main_v40 main_v42
  let main_c_16 : IVec S_ 1 := constantI S_ 1 1#1
  let main_v44 : IVec S_ 1 := (fun x v => Host.reduce IntOp.andi x v reducesTo_S2x500000_S_d0_1 h_S_) main_v43 main_c_16
  let main_v45 : IVec S_ 1 := andi main_v38 main_v44
  main_v45

def fn_part1 {F : FTy → Type} [FloatOps F] (main_arg1 : IVec S2x500000 32) (main_arg5 : FVec F S256x64 .f32) (main_arg6 : FVec F S64 .f32) (main_arg7 : FVec F S64 .f32) (main_arg8 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x500000 32) (main_arg2 : FVec F S500000x64 .f32) (main_arg3 : FVec F S320x256 .f32) (main_arg4 : FVec F S256 .f32) (main_arg5 : FVec F S256x64 .f32) (main_arg6 : FVec F S64 .f32) (main_arg7 : FVec F S64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S320x256 .f32 := Host.absf main_arg3
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S1x256 : Shape := ⟨2, ![1, 256]⟩
abbrev S1x64 : Shape := ⟨2, ![1, 64]⟩
abbrev S5000x128 : Shape := ⟨2, ![5000, 128]⟩
abbrev S5000x64 : Shape := ⟨2, ![5000, 64]⟩
abbrev S5000x320 : Shape := ⟨2, ![5000, 320]⟩
abbrev S5000x256 : Shape := ⟨2, ![5000, 256]⟩
abbrev S5000 : Shape := ⟨1, ![5000]⟩
abbrev S5000x1 : Shape := ⟨2, ![5000, 1]⟩

abbrev nBuf : Space → Nat
  | .hbm => 66
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S320x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S1, .i32⟩
  | .hbm, ⟨22, _⟩ => ⟨S_, .i32⟩
  | .hbm, ⟨23, _⟩ => ⟨S500000x1, .i32⟩
  | .hbm, ⟨24, _⟩ => ⟨S500000x1, .i1⟩
  | .hbm, ⟨25, _⟩ => ⟨S1x1, .i32⟩
  | .hbm, ⟨26, _⟩ => ⟨S500000x1, .i32⟩
  | .hbm, ⟨27, _⟩ => ⟨S500000x1, .i1⟩
  | .hbm, ⟨28, _⟩ => ⟨S500000x1, .i1⟩
  | .hbm, ⟨29, _⟩ => ⟨S_, .i1⟩
  | .hbm, ⟨30, _⟩ => ⟨S500000, .i1⟩
  | .hbm, ⟨31, _⟩ => ⟨S500000x128, .f32⟩
  | .hbm, ⟨32, _⟩ => ⟨S500000x128, .i1⟩
  | .hbm, ⟨33, _⟩ => ⟨S_, .f32⟩
  | .hbm, ⟨34, _⟩ => ⟨S500000x128, .f32⟩
  | .hbm, ⟨35, _⟩ => ⟨S500000x128, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S1, .i32⟩
  | .hbm, ⟨45, _⟩ => ⟨S_, .i32⟩
  | .hbm, ⟨46, _⟩ => ⟨S500000x1, .i32⟩
  | .hbm, ⟨47, _⟩ => ⟨S500000x1, .i1⟩
  | .hbm, ⟨48, _⟩ => ⟨S1x1, .i32⟩
  | .hbm, ⟨49, _⟩ => ⟨S500000x1, .i32⟩
  | .hbm, ⟨50, _⟩ => ⟨S500000x1, .i1⟩
  | .hbm, ⟨51, _⟩ => ⟨S500000x1, .i1⟩
  | .hbm, ⟨52, _⟩ => ⟨S_, .i1⟩
  | .hbm, ⟨53, _⟩ => ⟨S500000, .i1⟩
  | .hbm, ⟨54, _⟩ => ⟨S500000x128, .f32⟩
  | .hbm, ⟨55, _⟩ => ⟨S500000x128, .i1⟩
  | .hbm, ⟨56, _⟩ => ⟨S_, .f32⟩
  | .hbm, ⟨57, _⟩ => ⟨S500000x128, .f32⟩
  | .hbm, ⟨58, _⟩ => ⟨S500000x128, .f32⟩
  | .hbm, ⟨59, _⟩ => ⟨S320x256, .bf16⟩
  | .hbm, ⟨60, _⟩ => ⟨S256x64, .bf16⟩
  | .hbm, ⟨61, _⟩ => ⟨S1x256, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S500000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x64, .f32⟩
  | .local _ .vmem, ⟨5, _⟩ => ⟨S5000x64, .f32⟩
  | .local _ .vmem, ⟨6, _⟩ => ⟨S320x256, .bf16⟩
  | .local _ .vmem, ⟨7, _⟩ => ⟨S1x256, .f32⟩
  | .local _ .vmem, ⟨8, _⟩ => ⟨S256x64, .bf16⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bitsLt_bf16_f32 : FTy.bits .bf16 < FTy.bits .f32
  shapeCasts_S256_S1x256 : S256.ShapeCasts S1x256
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  concatenates_S5000x128_S5000x128_S5000x64_S5000x320_d1 : Shape.Concatenates [S5000x128, S5000x128, S5000x64] S5000x320 1
  inb_S320x256_S320x256_0_0 : ∀ a, (![0, 0] : Fin 2 → Nat) a + S320x256.size a ≤ S320x256.size a
  h_S320x256 : 0 < S320x256.numel
  shapeCasts_S320x256_S320x256 : S320x256.ShapeCasts S320x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x128_S500000x1_S500000x128_1_0_n_n_0_1_1128_wf : GatherDims.WF S100000x128 S500000x1 S500000x128 [1] [0] [] [0] [] 1 ![1, 128]
  dot_S5000x320_S320x256_S5000x256_1_0_0_1_n_n_wf : DotDims.WF S5000x320 S320x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x256.size a
  hwx0_3 : ∀ i : grid0.Coords, EltTy.bits .bf16 = 32 ∨ (Rect.block (s := S320x256) S320x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S500000x64.size a
  hwx0_9 : ∀ i : grid0.Coords, EltTy.bits .f32 = 32 ∨ (Rect.block (s := S500000x64) S5000x64.size (cc0_transform_9 i) (hinb0_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x320_S320x256_S5000x256_1_0_0_1_n_n : DotDims S5000x320 S320x256 S5000x256 where
  lhsContracting := [1]
  rhsContracting := [0]
  lhsNonContracting := [0]
  rhsNonContracting := [1]
  lhsBatch := []
  rhsBatch := []
  wf := dot_S5000x320_S320x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S320x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x64 : Shape := ⟨2, ![500000, 64]⟩
abbrev S320x256 : Shape := ⟨2, ![320, 256]⟩
abbrev S256 : Shape := ⟨1, ![256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x320 : Shape := ⟨2, ![500000, 320]⟩
abbrev S500000x256 : Shape := ⟨2, ![500000, 256]⟩
abbrev S1x256 : Shape := ⟨2, ![1, 256]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x64, .f32⟩
  | .hbm, ⟨3, _⟩ => ⟨S320x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S500000x320, .f32⟩
  | .hbm, ⟨32, _⟩ => ⟨S500000x256, .f32⟩
  | .hbm, ⟨33, _⟩ => ⟨S1x256, .f32⟩
  | .hbm, ⟨34, _⟩ => ⟨S500000x256, .f32⟩
  | .hbm, ⟨35, _⟩ => ⟨S500000x256, .f32⟩
  | .hbm, ⟨36, _⟩ => ⟨S_, .f32⟩
  | .hbm, ⟨37, _⟩ => ⟨S500000x256, .f32⟩
  | .hbm, ⟨38, _⟩ => ⟨S500000x256, .f32⟩
  | .hbm, ⟨39, _⟩ => ⟨S500000x64, .f32⟩
  | .hbm, ⟨40, _⟩ => ⟨S1x64, .f32⟩
  | .hbm, ⟨41, _⟩ => ⟨S500000x64, .f32⟩
  | .hbm, ⟨42, _⟩ => ⟨S500000x64, .f32⟩
  | .hbm, ⟨43, _⟩ => ⟨S500000x64, .f32⟩
  | .hbm, ⟨44, _⟩ => ⟨S_, .f32⟩
  | .hbm, ⟨45, _⟩ => ⟨S500000, .f32⟩
  | .hbm, ⟨46, _⟩ => ⟨S500000x1, .f32⟩
  | .hbm, ⟨47, _⟩ => ⟨S_, .f32⟩
  | .hbm, ⟨48, _⟩ => ⟨S500000x1, .f32⟩
  | .hbm, ⟨49, _⟩ => ⟨S500000x1, .f32⟩
  | .hbm, ⟨50, _⟩ => ⟨S500000x64, .f32⟩
  | .hbm, ⟨51, _⟩ => ⟨S500000x64, .f32⟩
  | .hbm, ⟨52, _⟩ => ⟨S500000x64, .f32⟩
  | .hbm, ⟨53, _⟩ => ⟨S_, .f32⟩
  | .hbm, ⟨54, _⟩ => ⟨S500000, .f32⟩
  | .hbm, ⟨55, _⟩ => ⟨S500000x1, .f32⟩
  | .hbm, ⟨56, _⟩ => ⟨S_, .f32⟩
  | .hbm, ⟨57, _⟩ => ⟨S500000x1, .f32⟩
  | .hbm, ⟨58, _⟩ => ⟨S500000x1, .f32⟩
  | .hbm, ⟨59, _⟩ => ⟨S500000x64, .f32⟩
  | .hbm, ⟨60, _⟩ => ⟨S500000x64, .f32⟩
  | .hbm, ⟨61, _⟩ => ⟨S_, .f32⟩
  | .hbm, ⟨62, _⟩ => ⟨S500000x1, .f32⟩
  | .hbm, ⟨63, _⟩ => ⟨S500000x1, .f32⟩
  | .hbm, ⟨64, _⟩ => ⟨S500000x1, .f32⟩
  | .hbm, ⟨65, _⟩ => ⟨S500000x64, .f32⟩
  | .hbm, ⟨66, _⟩ => ⟨S500000x64, .f32⟩
  | .hbm, ⟨67, _⟩ => ⟨S1x64, .f32⟩
  | .hbm, ⟨68, _⟩ => ⟨S500000x64, .f32⟩
  | .hbm, ⟨69, _⟩ => ⟨S500000x64, .f32⟩
  | .hbm, ⟨70, _⟩ => ⟨S1x64, .f32⟩
  | .hbm, ⟨71, _⟩ => ⟨S500000x64, .f32⟩
  | .hbm, ⟨72, _⟩ => ⟨S500000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x320_d1 : Shape.Concatenates [S500000x128, S500000x128, S500000x64] S500000x320 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  reducesTo_S500000x64_S500000_d1 : S500000x64.ReducesTo [1] S500000
  h_S_ : 0 < S_.numel
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  gather_S100000x128_S500000x1_S500000x128_1_0_n_n_0_1_1128_wf : GatherDims.WF S100000x128 S500000x1 S500000x128 [1] [0] [] [0] [] 1 ![1, 128]
  dot_S500000x320_S320x256_S500000x256_1_0_0_1_n_n_wf : DotDims.WF S500000x320 S320x256 S500000x256 [1] [0] [0] [1] [] []
  dot_S500000x256_S256x64_S500000x64_1_0_0_1_n_n_wf : DotDims.WF S500000x256 S256x64 S500000x64 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x320_S320x256_S500000x256_1_0_0_1_n_n : DotDims S500000x320 S320x256 S500000x256 where
  lhsContracting := [1]
  rhsContracting := [0]
  lhsNonContracting := [0]
  rhsNonContracting := [1]
  lhsBatch := []
  rhsBatch := []
  wf := dot_S500000x320_S320x256_S500000x256_1_0_0_1_n_n_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf

class Facts : Prop extends Facts₀ where

variable [Facts]
-- ==== Proof.InRange.lean ====
/-
  What the precondition says of the edge index.

  The precondition is a conjunction of `all`-reductions; its last conjunct reduces, over both axes of the edge index,
  the entrywise test `0 ≤ w` and `w < 100000` on signed words. The whole being 1 makes that conjunct 1, an
  `and`-reduction that is 1 met only 1s, and a 1 of the two comparisons says the entry, read signed, is in `[0, 100000)`:
  every entry names a row of the node table.
-/
import proofs.«413892_j31224412242359_2_alg».proof.Pre_finite_inputs
import Idealize.ShloMosaic.Lib.ReduceAll
import Idealize.ShloMosaic.Lib.ValueIdx
import Idealize.ShloMosaic.PureOps.Ideal

noncomputable section

namespace Cert.InRange

open Idealize.ShloMosaic Idealize.ShloMosaic.ValueIdx Cert.Pre_finite_inputs

instance : Subsingleton S_.Idx := ⟨fun _ _ => funext fun d => d.elim0⟩

theorem toInt_zero : (0#32 : BitVec 32).toInt = 0 := by decide
theorem toInt_rows : (100000#32 : BitVec 32).toInt = 100000 := by decide

/-- Under the precondition every entry of the edge index, read signed, lies in `[0, 100000)`. -/
theorem index_inRange [Facts] (a0 : FVec Ideal S100000x128 .f32) (a1 : IVec S2x500000 32) (a2 : FVec Ideal S500000x64 .f32)
    (a3 : FVec Ideal S320x256 .f32) (a4 : FVec Ideal S256 .f32) (a5 : FVec Ideal S256x64 .f32) (a6 a7 a8 : FVec Ideal S64 .f32)
    (h : fn (F := Ideal) a0 a1 a2 a3 a4 a5 a6 a7 a8 = fun _ => 1#1) (j : S2x500000.Idx) :
    0 ≤ (a1 j).toInt ∧ (a1 j).toInt < 100000 := by
  have h0 : IntOp.andi _ (Host.reduce IntOp.andi
      (andi (cmpi .sge a1 (broadcastInDim S2x500000 ![] Facts.bcast_S_S2x500000 (constantI S_ 32 0#32)))
        (cmpi .slt a1 (broadcastInDim S2x500000 ![] Facts.bcast_S_S2x500000 (constantI S_ 32 100000#32))))
      (constantI S_ 1 1#1) Facts.reducesTo_S2x500000_S_d0_1 Facts.h_S_ ix0) = 1#1 := congrFun h ix0
  have h2 := Host.reduce_andi_all _ _ _ _ ix0 (IntOp.andi_eq_one.1 h0).2 j
  have h3 : IntOp.andi (IntOp.cmpi .sge (a1 j) 0#32) (IntOp.cmpi .slt (a1 j) 100000#32) = 1#1 := h2
  obtain ⟨hge, hlt⟩ := IntOp.andi_eq_one.1 h3
  rw [IntOp.cmpi_sge, toInt_zero] at hge
  rw [IntOp.cmpi_slt, toInt_rows] at hlt
  exact ⟨hge, hlt⟩

end Cert.InRange

end
-- ==== Proof.EdgeRow.lean ====
/-
  One edge of the message-passing layer, as a function of that edge's data.

  For one edge the layer takes the two endpoint rows `u v : Fin 128 → EReal` and the edge's own row
  `a : Fin 64 → EReal`, joins them into one row of length 320, sends it through a two-layer perceptron with a
  rectifier in between, adds the result to `a`, and normalises the sum over its 64 entries (mean, variance with the
  layer's small constant under an inverse square root), with a gain and an offset per entry. Everything is stated on the
  extended reals, entry by entry, with the sums written as sums over the literal index ranges. Both programs compute
  this function of the edge's data: the kernel on a block of 5000 edges at a time, the reference on all 500000 at once.

  Also here: the one layout fact both sides need, a three-piece joining of `[a,128]`, `[a,128]`, `[a,64]` arrays
  along the second axis read at `(p, k)`, for any number of rows `a`.
-/
import Idealize.ShloMosaic.PureOps.Ideal
import Idealize.ShloMosaic.Lib.ValueIdx
import Idealize.ShloMosaic.Lib.Pipeline.Value

noncomputable section

open scoped BigOperators

namespace Cert.EdgeRow

open Idealize.ShloMosaic Idealize.ShloMosaic.ValueIdx

variable {α : Type}

/-- The joined row: entries 0–127 from `u`, 128–255 from `v`, 256–319 from `w`. -/
def joined (u v : Fin 128 → α) (w : Fin 64 → α) (k : Fin 320) : α :=
  if h : k.val < 128 then u ⟨k.val, h⟩
  else if h' : k.val < 256 then v ⟨k.val - 128, by omega⟩
  else w ⟨k.val - 256, by omega⟩

/-- Three arrays of `a` rows joined along the second axis, read at row `p`, column `k`: the joined row of the three
    rows `p`. -/
theorem concat3_apply {a : Nat} (x1 x2 : (⟨2, ![a, 128]⟩ : Shape).Idx → α) (x3 : (⟨2, ![a, 64]⟩ : Shape).Idx → α)
    (h : Shape.Concatenates [(⟨2, ![a, 128]⟩ : Shape), ⟨2, ![a, 128]⟩, ⟨2, ![a, 64]⟩] ⟨2, ![a, 320]⟩ 1)
    (p : Fin a) (k : Fin 320) :
    concatenate ⟨2, ![a, 320]⟩ 1 [⟨⟨2, ![a, 128]⟩, x1⟩, ⟨⟨2, ![a, 128]⟩, x2⟩, ⟨⟨2, ![a, 64]⟩, x3⟩] h (ix2 p k)
      = joined (fun c => x1 (ix2 p c)) (fun c => x2 (ix2 p c)) (fun c => x3 (ix2 p c)) k := by
  unfold joined
  have hlen : ([⟨⟨2, ![a, 128]⟩, x1⟩, ⟨⟨2, ![a, 128]⟩, x2⟩, ⟨⟨2, ![a, 64]⟩, x3⟩] :
      List ((s : Shape) × (s.Idx → α))).length = 3 := rfl
  by_cases h1 : k.val < 128
  · rw [dif_pos h1]
    refine concatenate_apply_piece (t := ⟨2, ![a, 320]⟩) (1 : Fin 2)
      [⟨⟨2, ![a, 128]⟩, x1⟩, ⟨⟨2, ![a, 128]⟩, x2⟩, ⟨⟨2, ![a, 64]⟩, x3⟩] h (ix2 p k) 0 (by rw [hlen]; omega)
      ⟨2, ![a, 128]⟩ x1 rfl rfl 0 rfl
      (ix2 p ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece (t := ⟨2, ![a, 320]⟩) (1 : Fin 2)
        [⟨⟨2, ![a, 128]⟩, x1⟩, ⟨⟨2, ![a, 128]⟩, x2⟩, ⟨⟨2, ![a, 64]⟩, x3⟩] h (ix2 p k) 1 (by rw [hlen]; omega)
        ⟨2, ![a, 128]⟩ x2 rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · rw [dif_neg h2]
      have hk : k.val < 320 := k.isLt
      refine concatenate_apply_piece (t := ⟨2, ![a, 320]⟩) (1 : Fin 2)
        [⟨⟨2, ![a, 128]⟩, x1⟩, ⟨⟨2, ![a, 128]⟩, x2⟩, ⟨⟨2, ![a, 64]⟩, x3⟩] h (ix2 p k) 2 (by rw [hlen]; omega)
        ⟨2, ![a, 64]⟩ x3 rfl rfl 256 rfl
        (ix2 p ⟨k.val - 256, by omega⟩) (fun b hb => ?_) ?_
      · match b with
        | ⟨0, _⟩ => rfl
        | ⟨1, _⟩ => exact absurd rfl hb
      · show 256 + (k.val - 256) = k.val
        omega

/-! ## The layer on one edge -/

/-- The hidden layer: the joined row against the first weight matrix, plus the bias, rectified at the zero word. -/
def hiddenRow (u : Fin 320 → EReal) (W1 : Fin 320 → Fin 256 → EReal) (b1 : Fin 256 → EReal) (j : Fin 256) : EReal :=
  max ((∑ k : Fin 320, u k * W1 k j) + b1 j) (Ideal.ofBits .f32 0x00000000#32)

/-- The updated edge row: the edge's own row plus the second layer's output. -/
def updated (a : Fin 64 → EReal) (h : Fin 256 → EReal) (W2 : Fin 256 → Fin 64 → EReal) (b2 : Fin 64 → EReal)
    (q : Fin 64) : EReal :=
  a q + ((∑ j : Fin 256, h j * W2 j q) + b2 q)

/-- The mean of a row of 64 entries: its sum divided by the word of 64. -/
def mean64 (n : Fin 64 → EReal) : EReal := Ideal.div (∑ q : Fin 64, n q) (Ideal.ofBits .f32 0x42800000#32)

/-- The normalised row: centred, scaled by the inverse square root of the variance plus the layer's constant, then the
    gain and the offset. -/
def normed (n g b : Fin 64 → EReal) (q : Fin 64) : EReal :=
  (n q - mean64 n) * Ideal.rsqrt (mean64 (fun r => (n r - mean64 n) * (n r - mean64 n)) + Ideal.ofBits .f32 0x3727C5AC#32)
    * g q + b q

/-- The layer's output row for one edge. -/
def edgeOut (u : Fin 320 → EReal) (a : Fin 64 → EReal) (W1 : Fin 320 → Fin 256 → EReal) (b1 : Fin 256 → EReal)
    (W2 : Fin 256 → Fin 64 → EReal) (b2 g b : Fin 64 → EReal) (q : Fin 64) : EReal :=
  normed (updated a (hiddenRow u W1 b1) W2 b2) g b q

end Cert.EdgeRow

end
-- ==== Proof.RefRow.lean ====
/-
  The reference on all 500000 edges at once, read at one entry.

  The reference gathers the two endpoint rows of every edge, joins them with the edge's own row, and applies the same
  perceptron and normalisation to the whole `[500000, ·]` arrays. Read at edge `e`, column `q`, every stage depends on
  row `e` only, and the result is the layer's output (`Cert.EdgeRow.edgeOut`) for that edge's data.
-/
import proofs.«413892_j31224412242359_2_alg».proof.Proof.Gen.ReferenceIdeal.Read
import proofs.«413892_j31224412242359_2_alg».proof.Proof.EdgeRow
import Idealize.ShloMosaic.PureOps.Ideal.Laws

noncomputable section

open scoped BigOperators

namespace Cert.RefRow

open Cert.ReferenceIdeal Cert.ReferenceIdeal.Read Idealize.ShloMosaic Idealize.ShloMosaic.ValueIdx Cert.EdgeRow

variable (x0 : S100000x128.Idx → EReal) (x1 : S2x500000.Idx → BitVec 32) (x2 : S500000x64.Idx → EReal)
  (x3 : S320x256.Idx → EReal) (x4 : S256.Idx → EReal) (x5 : S256x64.Idx → EReal) (x6 x7 x8 : S64.Idx → EReal)

/-- The joined input row of edge `e`: its two gathered endpoint rows, then its own row. -/
def rowIn (e : Fin 500000) : Fin 320 → EReal :=
  joined (fun c => val_main_v10 (F := Ideal) x0 x1 (ix2 e c)) (fun c => val_main_v17 (F := Ideal) x0 x1 (ix2 e c))
    (fun c => x2 (ix2 e c))

/-- The updated row of edge `e`, as the reference's array holds it. -/
def rowUp (e : Fin 500000) : Fin 64 → EReal := fun c => val_main_v28 (F := Ideal) x0 x1 x2 x3 x4 x5 x6 (ix2 e c)

theorem hidden_at (e : Fin 500000) (j : Fin 256) :
    val_main_v23 (F := Ideal) x0 x1 x2 x3 x4 (ix2 e j)
      = hiddenRow (rowIn x0 x1 x2 e) (fun k j => x3 (ix2 k j)) (fun j => x4 (ix1 j)) j := by
  rw [val_main_v23_apply, val_main_v22_apply, val_main_v19_apply, val_main_v21_apply, val_main_v20_apply,
    val_main_call0_v0_apply, val_main_call0_cst_apply]
  unfold hiddenRow
  refine congrArg₂ max (congrArg₂ (· + ·) (Finset.sum_congr rfl fun k _ => congrArg₂ (· * ·) ?_ (congrArg x3 ?_))
    (congrArg x4 ?_)) rfl
  · have hl : lidx_main_v19 (ix2 e j) k = ix2 e k := by
      funext a; match a with | ⟨0, _⟩ => rfl | ⟨1, _⟩ => rfl
    rw [hl]
    unfold val_main_v18 rowIn
    exact concat3_apply _ _ _ _ e k
  · funext a; match a with | ⟨0, _⟩ => rfl | ⟨1, _⟩ => rfl
  · funext a; match a with | ⟨0, _⟩ => rfl

theorem updated_at (e : Fin 500000) (q : Fin 64) :
    rowUp x0 x1 x2 x3 x4 x5 x6 e q
      = updated (fun c => x2 (ix2 e c)) (hiddenRow (rowIn x0 x1 x2 e) (fun k j => x3 (ix2 k j)) (fun j => x4 (ix1 j)))
          (fun j c => x5 (ix2 j c)) (fun c => x6 (ix1 c)) q := by
  unfold rowUp
  rw [val_main_v28_apply, val_main_v27_apply, val_main_v24_apply, val_main_v26_apply, val_main_v25_apply]
  unfold updated
  refine congrArg₂ (· + ·) rfl (congrArg₂ (· + ·) (Finset.sum_congr rfl fun k _ => congrArg₂ (· * ·) ?_ (congrArg x5 ?_))
    (congrArg x6 ?_))
  · have hl : lidx_main_v24 (ix2 e q) k = ix2 e k := by
      funext a; match a with | ⟨0, _⟩ => rfl | ⟨1, _⟩ => rfl
    rw [hl]
    exact hidden_at x0 x1 x2 x3 x4 e k
  · funext a; match a with | ⟨0, _⟩ => rfl | ⟨1, _⟩ => rfl
  · funext a; match a with | ⟨0, _⟩ => rfl

/-! ## The normalisation -/

theorem sum_at (e : Fin 500000) :
    val_main_v29 (F := Ideal) x0 x1 x2 x3 x4 x5 x6 (ix1 e) = ∑ c : Fin 64, rowUp x0 x1 x2 x3 x4 x5 x6 e c := by
  rw [val_main_v29_apply, val_main_cst_apply]
  show Ideal.ofBits .f32 0x00000000#32 + _ = _
  rw [Ideal.ofBits_zero_f32, zero_add]
  refine Finset.sum_congr rfl fun k _ => ?_
  unfold rowUp
  refine congrArg _ ?_
  funext a; match a with | ⟨0, _⟩ => rfl | ⟨1, _⟩ => rfl

theorem mean_at (e : Fin 500000) (z : Fin 1) :
    val_main_v32 (F := Ideal) x0 x1 x2 x3 x4 x5 x6 (ix2 e z) = mean64 (rowUp x0 x1 x2 x3 x4 x5 x6 e) := by
  rw [val_main_v32_apply, val_main_v30_apply, val_main_v31_apply, val_main_cst_3_apply]
  unfold mean64
  refine congrArg (fun s => Ideal.div s (Ideal.ofBits .f32 0x42800000#32)) ?_
  have hi : idx_main_v30 (ix2 e z) = ix1 e := by
    funext a; match a with | ⟨0, _⟩ => rfl
  rw [hi]
  exact sum_at x0 x1 x2 x3 x4 x5 x6 e

theorem centred_at (e : Fin 500000) (q : Fin 64) :
    val_main_v34 (F := Ideal) x0 x1 x2 x3 x4 x5 x6 (ix2 e q)
      = rowUp x0 x1 x2 x3 x4 x5 x6 e q - mean64 (rowUp x0 x1 x2 x3 x4 x5 x6 e) := by
  rw [val_main_v34_apply, val_main_v33_apply]
  refine congrArg₂ (· - ·) rfl ?_
  have hi : idx_main_v33 (ix2 e q) = ix2 e 0 := by
    funext a; match a with | ⟨0, _⟩ => rfl | ⟨1, _⟩ => rfl
  rw [hi]
  exact mean_at x0 x1 x2 x3 x4 x5 x6 e 0

theorem centred_at' (e : Fin 500000) (q : Fin 64) :
    val_main_v41 (F := Ideal) x0 x1 x2 x3 x4 x5 x6 (ix2 e q)
      = rowUp x0 x1 x2 x3 x4 x5 x6 e q - mean64 (rowUp x0 x1 x2 x3 x4 x5 x6 e) := by
  rw [val_main_v41_apply, val_main_v40_apply]
  refine congrArg₂ (· - ·) rfl ?_
  have hi : idx_main_v40 (ix2 e q) = ix2 e 0 := by
    funext a; match a with | ⟨0, _⟩ => rfl | ⟨1, _⟩ => rfl
  rw [hi]
  exact mean_at x0 x1 x2 x3 x4 x5 x6 e 0

theorem sumsq_at (e : Fin 500000) :
    val_main_v36 (F := Ideal) x0 x1 x2 x3 x4 x5 x6 (ix1 e)
      = ∑ c : Fin 64, (rowUp x0 x1 x2 x3 x4 x5 x6 e c - mean64 (rowUp x0 x1 x2 x3 x4 x5 x6 e))
          * (rowUp x0 x1 x2 x3 x4 x5 x6 e c - mean64 (rowUp x0 x1 x2 x3 x4 x5 x6 e)) := by
  rw [val_main_v36_apply, val_main_cst_4_apply]
  show Ideal.ofBits .f32 0x00000000#32 + _ = _
  rw [Ideal.ofBits_zero_f32, zero_add]
  refine Finset.sum_congr rfl fun k _ => ?_
  have hi : idx_main_v36 (ix1 e) k = ix2 e k := by
    funext a; match a with | ⟨0, _⟩ => rfl | ⟨1, _⟩ => rfl
  rw [hi, val_main_v35_apply, centred_at]
  rfl

theorem var_at (e : Fin 500000) (z : Fin 1) :
    val_main_v39 (F := Ideal) x0 x1 x2 x3 x4 x5 x6 (ix2 e z)
      = mean64 (fun r => (rowUp x0 x1 x2 x3 x4 x5 x6 e r - mean64 (rowUp x0 x1 x2 x3 x4 x5 x6 e))
          * (rowUp x0 x1 x2 x3 x4 x5 x6 e r - mean64 (rowUp x0 x1 x2 x3 x4 x5 x6 e))) := by
  rw [val_main_v39_apply, val_main_v37_apply, val_main_v38_apply, val_main_cst_5_apply]
  unfold mean64
  refine congrArg (fun s => Ideal.div s (Ideal.ofBits .f32 0x42800000#32)) ?_
  have hi : idx_main_v37 (ix2 e z) = ix1 e := by
    funext a; match a with | ⟨0, _⟩ => rfl
  rw [hi]
  exact sumsq_at x0 x1 x2 x3 x4 x5 x6 e

theorem scale_at (e : Fin 500000) (z : Fin 1) :
    val_main_v44 (F := Ideal) x0 x1 x2 x3 x4 x5 x6 (ix2 e z)
      = Ideal.rsqrt (mean64 (fun r => (rowUp x0 x1 x2 x3 x4 x5 x6 e r - mean64 (rowUp x0 x1 x2 x3 x4 x5 x6 e))
          * (rowUp x0 x1 x2 x3 x4 x5 x6 e r - mean64 (rowUp x0 x1 x2 x3 x4 x5 x6 e))) + Ideal.ofBits .f32 0x3727C5AC#32) := by
  rw [val_main_v44_apply, val_main_v43_apply, val_main_v42_apply, val_main_cst_6_apply, var_at]
  rfl

/-- THE REFERENCE'S ENTRY: its result at edge `e`, column `q` is the layer's output for edge `e`'s data. -/
theorem out_at (e : Fin 500000) (q : Fin 64) :
    val_main_v52 (F := Ideal) x0 x1 x2 x3 x4 x5 x6 x7 x8 (ix2 e q)
      = edgeOut (rowIn x0 x1 x2 e) (fun c => x2 (ix2 e c)) (fun k j => x3 (ix2 k j)) (fun j => x4 (ix1 j))
          (fun j c => x5 (ix2 j c)) (fun c => x6 (ix1 c)) (fun c => x7 (ix1 c)) (fun c => x8 (ix1 c)) q := by
  have hN : rowUp x0 x1 x2 x3 x4 x5 x6 e
      = updated (fun c => x2 (ix2 e c)) (hiddenRow (rowIn x0 x1 x2 e) (fun k j => x3 (ix2 k j)) (fun j => x4 (ix1 j)))
          (fun j c => x5 (ix2 j c)) (fun c => x6 (ix1 c)) := funext fun c => updated_at x0 x1 x2 x3 x4 x5 x6 e c
  unfold edgeOut
  rw [← hN]
  rw [val_main_v52_apply, val_main_v49_apply, val_main_v46_apply, val_main_v45_apply, val_main_v48_apply, val_main_v47_apply,
    val_main_v51_apply, val_main_v50_apply]
  unfold normed
  refine congrArg₂ (· + ·) (congrArg₂ (· * ·) (congrArg₂ (· * ·) (centred_at' x0 x1 x2 x3 x4 x5 x6 e q) ?_)
    (congrArg x7 ?_)) (congrArg x8 ?_)
  · have hi : idx_main_v45 (ix2 e q) = ix2 e 0 := by
      funext a; match a with | ⟨0, _⟩ => rfl | ⟨1, _⟩ => rfl
    rw [hi]
    exact scale_at x0 x1 x2 x3 x4 x5 x6 e 0
  · funext a; match a with | ⟨0, _⟩ => rfl
  · funext a; match a with | ⟨0, _⟩ => rfl

/-! ## The whole array -/

/-- The layer's output array as one function of the argument arrays: entry `(e, q)` is the layer's output for edge `e`. -/
def layerOut : S500000x64.Idx → EReal := fun i =>
  edgeOut (rowIn x0 x1 x2 (i 0)) (fun c => x2 (ix2 (i 0) c)) (fun k j => x3 (ix2 k j)) (fun j => x4 (ix1 j))
    (fun j c => x5 (ix2 j c)) (fun c => x6 (ix1 c)) (fun c => x7 (ix1 c)) (fun c => x8 (ix1 c)) (i 1)

/-- The reference's result is that array. -/
theorem ref_eq : val_main_v52 (F := Ideal) x0 x1 x2 x3 x4 x5 x6 x7 x8 = layerOut x0 x1 x2 x3 x4 x5 x6 x7 x8 := by
  funext i
  obtain ⟨e, q, rfl⟩ : ∃ (e : Fin 500000) (q : Fin 64), i = ix2 e q := ⟨i 0, i 1, eq_ix2 i⟩
  exact out_at x0 x1 x2 x3 x4 x5 x6 x7 x8 e q

end Cert.RefRow

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibRow2.lean ====
/-
  Rows of an `[a, b]` array at the ideal values, read at an index, and the unit axis of a `[1, a, b]` block.

  * a maximum-reduction of an `[a, b]` array along its last axis is, at row `r`, the fold of `max` from the accumulator's
    value over the `b` entries of the row; an add-reduction is the sum of the row's entries;
  * a `[1, a, b]` array cast to `[a, b]` reads, at `(p, s)`, the array at `(0, p, s)`, and an `[a, b]` array cast to
    `[1, a, b]` reads, at `(u, p, s)`, the array at `(p, s)`: the row-major positions agree, the unit axis weighing nothing.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

/-- The reduced index `r` with the coordinate `k` put back on the last axis is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_last h r k)
  exact congrArg (fun f => Finset.fold max (Ideal.ofBits φ acc) f (Finset.univ : Finset (Fin b))) hf

/-- An add-reduction along the last axis, at row `r`: the sum of the row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- The f32 word of −∞ is the bottom of the extended reals. -/
theorem ofBits_neg_inf_f32 : Ideal.ofBits .f32 0xFF800000#32 = (⊥ : EReal) := by
  simp [Ideal.ofBits, Ideal.ieee]

variable {α : Type}

/-- A `[1, a, b]` array cast to `[a, b]` reads, at `(p, s)`, the array at `(0, p, s)`. -/
theorem dropUnit_apply (x : (⟨3, ![1, a, b]⟩ : Shape).Idx → α) (h : (⟨3, ![1, a, b]⟩ : Shape).ShapeCasts ⟨2, ![a, b]⟩)
    (p : Fin a) (s : Fin b) : shapeCast ⟨2, ![a, b]⟩ x h (ix2 p s) = x (ix3 (0 : Fin 1) p s) :=
  shapeCast_apply x h _ _ (by
    rw [Shape.rowMajor_val_three, Shape.rowMajor_val_two]
    show ((0 : ℕ) * a + p.val) * b + s.val = p.val * b + s.val
    rw [Nat.zero_mul, Nat.zero_add])

/-- An `[a, b]` array cast to `[1, a, b]` reads, at `(u, p, s)`, the array at `(p, s)`. -/
theorem addUnit_apply (x : (⟨2, ![a, b]⟩ : Shape).Idx → α) (h : (⟨2, ![a, b]⟩ : Shape).ShapeCasts ⟨3, ![1, a, b]⟩)
    (u : Fin 1) (p : Fin a) (s : Fin b) : shapeCast ⟨3, ![1, a, b]⟩ x h (ix3 u p s) = x (ix2 p s) :=
  shapeCast_apply x h _ _ (by
    have hu : u.val = 0 := by omega
    rw [Shape.rowMajor_val_two, Shape.rowMajor_val_three]
    show p.val * b + s.val = (u.val * a + p.val) * b + s.val
    rw [hu, Nat.zero_mul, Nat.zero_add])

end Cert.LibRow2

end
-- ==== Proof.KernelRow.lean ====
/-
  The kernel's body on one block of 5000 edges, read at one entry.

  The body joins the block's two endpoint blocks and its edge block, runs the perceptron on the matrix unit (both products
  into a zero accumulator, the narrowing of the operands the identity on extended reals), adds the edge block back and
  normalises each row. Read at row `p`, column `q` of the block it is the layer's output for that one edge
  (`Cert.EdgeRow.edgeOut`) of row `p` of each streamed block and of the weights.
-/
import proofs.«413892_j31224412242359_2_alg».proof.Proof.Gen.KernelIdeal.Value
import proofs.«413892_j31224412242359_2_alg».proof.Proof.EdgeRow
import proofs.«413892_j31224412242359_2_alg».proof.Proof.LibDot
import proofs.«413892_j31224412242359_2_alg».proof.Proof.LibRow2

noncomputable section

open scoped BigOperators

namespace Cert.KernelRow

open Cert.KernelIdeal Cert.KernelIdeal.Gen Idealize.ShloMosaic Idealize.ShloMosaic.ValueIdx Cert.EdgeRow

/-- A `[1, n]` row spread over 5000 rows, read at `(p, c)`: the row's entry `c`. -/
theorem spreadRow {n : Nat} (hn : n ≠ 1) (x : (⟨2, ![1, n]⟩ : Shape).Idx → EReal)
    (hc : (⟨2, ![1, n]⟩ : Shape).ShapeCasts ⟨2, ![1, n]⟩) (hb : (⟨2, ![1, n]⟩ : Shape).Broadcasts ⟨2, ![5000, n]⟩)
    (p : Fin 5000) (c : Fin n) :
    broadcastTo ⟨2, ![5000, n]⟩ (shapeCast ⟨2, ![1, n]⟩ x hc) hb (ix2 p c) = x (ix2 0 c) := by
  rw [shapeCast_self]
  refine broadcastTo_apply x hb (ix2 p c) (ix2 0 c) (fun a => ?_)
  match a with
  | ⟨0, _⟩ => exact (if_pos rfl).symm
  | ⟨1, _⟩ => exact (if_neg hn).symm

/-- The hidden layer of row `p`: the product of the joined block with the first weight matrix, plus the bias row,
    rectified, read at `(p, j)`. -/
theorem hidden_apply (U : FVec Ideal S5000x320 .f32) (W : FVec Ideal S320x256 .bf16) (Bv : FVec Ideal S1x256 .f32)
    (p : Fin 5000) (j : Fin 256) :
    (truncf .bf16 (maximumf (addf (matmul dot_S5000x320_S320x256_S5000x256_1_0_0_1_n_n none (truncf .bf16 U bitsLt_bf16_f32)
        (shapeCast S320x256 W shapeCasts_S320x256_S320x256) (constant S5000x256 .f32 0x00000000#32))
        (broadcastTo S5000x256 (shapeCast S1x256 Bv shapeCasts_S1x256_S1x256) broadcasts_S1x256_S5000x256))
        (broadcast S5000x256 (Scalar.ofBits .f32 0x00000000#32))) bitsLt_bf16_f32 : FVec Ideal S5000x256 .bf16) (ix2 p j)
      = hiddenRow (fun k => U (ix2 p k)) (fun k j => W (ix2 k j)) (fun j => Bv (ix2 0 j)) j := by
  unfold hiddenRow
  refine congrArg₂ max (congrArg₂ (· + ·) ?_ ?_) rfl
  · refine (LibDot.matmul_plain_apply dot_S5000x320_S320x256_S5000x256_1_0_0_1_n_n rfl rfl rfl rfl rfl rfl none _ _ p j).trans ?_
    refine Finset.sum_congr rfl fun k _ => ?_
    exact congrArg₂ (· * ·) rfl (congrFun (shapeCast_self W _) (ix2 k j))
  · exact spreadRow (by decide) Bv _ _ p j

/-- The updated edge rows of the block, read at `(p, q)`. -/
theorem pay2_apply (P0 P1 : FVec Ideal S5000x128 .f32) (P2 : FVec Ideal S5000x64 .f32) (P3 : FVec Ideal S320x256 .bf16)
    (P4 : FVec Ideal S1x256 .f32) (P5 : FVec Ideal S256x64 .bf16) (P6 : FVec Ideal S1x64 .f32) (p : Fin 5000) (q : Fin 64) :
    k0_pay2 (F := Ideal) P0 P1 P2 P3 P4 P5 P6 (ix2 p q)
      = updated (fun c => P2 (ix2 p c))
          (hiddenRow (joined (fun c => P0 (ix2 p c)) (fun c => P1 (ix2 p c)) (fun c => P2 (ix2 p c)))
            (fun k j => P3 (ix2 k j)) (fun j => P4 (ix2 0 j)))
          (fun j c => P5 (ix2 j c)) (fun c => P6 (ix2 0 c)) q := by
  unfold k0_pay2 updated
  refine congrArg₂ (· + ·) rfl (congrArg₂ (· + ·) ?_ ?_)
  · refine (LibDot.matmul_plain_apply dot_S5000x256_S256x64_S5000x64_1_0_0_1_n_n rfl rfl rfl rfl rfl rfl none _ _ p q).trans ?_
    refine Finset.sum_congr rfl fun j _ => ?_
    refine congrArg₂ (· * ·) ?_ (congrFun (shapeCast_self P5 _) (ix2 j q))
    refine (hidden_apply _ P3 P4 p j).trans ?_
    refine congrArg (fun u => hiddenRow u (fun k j => P3 (ix2 k j)) (fun j => P4 (ix2 0 j)) j) (funext fun k => ?_)
    rw [shapeCast_self, shapeCast_self]
    exact concat3_apply P0 P1 P2 _ p k
  · exact spreadRow (by decide) P6 _ _ p q

/-! ## The normalisation, and the whole block entry -/

open Cert.KernelIdeal.Value in
theorem ix9_0_at (p : Fin 5000) (q : Fin 64) : ix9_0 (ix2 p q) = ix2 p q := by
  funext a; match a with | ⟨0, _⟩ => rfl | ⟨1, _⟩ => rfl
open Cert.KernelIdeal.Value in
theorem ix9_1_at (p : Fin 5000) (q : Fin 64) : ix9_1 (ix2 p q) = ix1 p := by
  funext a; match a with | ⟨0, _⟩ => rfl
open Cert.KernelIdeal.Value in
theorem ix9_2_at (p : Fin 5000) (q : Fin 64) : ix9_2 (ix2 p q) = ix1 p := by
  funext a; match a with | ⟨0, _⟩ => rfl
open Cert.KernelIdeal.Value in
theorem ix9_3_at (p : Fin 5000) (q : Fin 64) : ix9_3 (ix2 p q) = ix2 0 q := by
  funext a; match a with | ⟨0, _⟩ => rfl | ⟨1, _⟩ => rfl
open Cert.KernelIdeal.Value in
theorem ix9_4_at (p : Fin 5000) (q : Fin 64) : ix9_4 (ix2 p q) = ix2 0 q := by
  funext a; match a with | ⟨0, _⟩ => rfl | ⟨1, _⟩ => rfl

/-- The sum of row `p` of a block of 5000 rows of 64. -/
theorem rowSum (X : FVec Ideal S5000x64 .f32) (p : Fin 5000) :
    (multiReduction .add [1] S5000 X 0x00000000#32 reduces_S5000x64_S5000 (.inl rfl) rfl : FVec Ideal S5000 .f32) (ix1 p)
      = ∑ r : Fin 64, X (ix2 p r) :=
  LibRow2.rowSum_apply X _ _ _ _ p

/-- The column of row means, spread back over the 64 columns, read at `(p, c)`: the mean of row `p`. -/
theorem meanSpread (X : FVec Ideal S5000x64 .f32) (p : Fin 5000) (c : Fin 64) :
    (broadcastTo S5000x64 (divf (shapeCast S5000x1 (multiReduction .add [1] S5000 X 0x00000000#32 reduces_S5000x64_S5000 (.inl rfl) rfl)
        shapeCasts_S5000_S5000x1) (broadcast S5000x1 (Scalar.ofBits .f32 0x42800000#32))) broadcasts_S5000x1_S5000x64 :
        FVec Ideal S5000x64 .f32) (ix2 p c)
      = mean64 (fun r => X (ix2 p r)) := by
  refine (broadcastTo_apply _ broadcasts_S5000x1_S5000x64 (ix2 p c) (ix2 p 0) (fun a => ?_)).trans ?_
  · match a with
    | ⟨0, _⟩ => exact (if_neg (show ¬((5000 : Nat) = 1) by decide)).symm
    | ⟨1, _⟩ => exact (if_pos rfl).symm
  · unfold mean64
    refine congrArg (fun s => Ideal.div s (Ideal.ofBits .f32 0x42800000#32)) ?_
    refine (shapeCast_apply _ shapeCasts_S5000_S5000x1 (ix2 p 0) (ix1 p) ?_).trans (rowSum X p)
    rw [Shape.rowMajor_val_one, Shape.rowMajor_val_two]
    show p.val = p.val * 1 + 0
    omega

/-- THE BLOCK ENTRY: what the body leaves at row `p`, column `q` of the output block is the layer's output for the edge
    whose data is row `p` of the three streamed blocks. -/
theorem E9_apply (P0 P1 : FVec Ideal S5000x128 .f32) (P2 : FVec Ideal S5000x64 .f32) (P3 : FVec Ideal S320x256 .bf16)
    (P4 : FVec Ideal S1x256 .f32) (P5 : FVec Ideal S256x64 .bf16) (P6 P7 P8 : FVec Ideal S1x64 .f32) (p : Fin 5000) (q : Fin 64) :
    Cert.KernelIdeal.Value.E9 (F := Ideal) P0 P1 P2 P3 P4 P5 P6 P7 P8 (ix2 p q)
      = edgeOut (joined (fun c => P0 (ix2 p c)) (fun c => P1 (ix2 p c)) (fun c => P2 (ix2 p c))) (fun c => P2 (ix2 p c))
          (fun k j => P3 (ix2 k j)) (fun j => P4 (ix2 0 j)) (fun j c => P5 (ix2 j c)) (fun c => P6 (ix2 0 c))
          (fun c => P7 (ix2 0 c)) (fun c => P8 (ix2 0 c)) q := by
  have hN : (fun c : Fin 64 => k0_pay2 (F := Ideal) P0 P1 P2 P3 P4 P5 P6 (ix2 p c))
      = updated (fun c => P2 (ix2 p c))
          (hiddenRow (joined (fun c => P0 (ix2 p c)) (fun c => P1 (ix2 p c)) (fun c => P2 (ix2 p c)))
            (fun k j => P3 (ix2 k j)) (fun j => P4 (ix2 0 j)))
          (fun j c => P5 (ix2 j c)) (fun c => P6 (ix2 0 c)) :=
    funext fun c => pay2_apply P0 P1 P2 P3 P4 P5 P6 p c
  unfold edgeOut
  rw [← hN]
  unfold normed
  refine congrArg₂ (· + ·) (congrArg₂ (· * ·) (congrArg₂ (· * ·) (congrArg₂ (· - ·) ?_ ?_)
    (congrArg Ideal.rsqrt (congrArg₂ (· + ·) ?_ rfl))) ?_) ?_
  · exact congrArg (k0_pay2 (F := Ideal) P0 P1 P2 P3 P4 P5 P6) (ix9_0_at p q)
  · unfold mean64
    refine congrArg (fun s => Ideal.div s (Ideal.ofBits .f32 0x42800000#32)) ?_
    exact (congrArg _ (ix9_1_at p q)).trans (rowSum _ p)
  · unfold mean64
    refine congrArg (fun s => Ideal.div s (Ideal.ofBits .f32 0x42800000#32)) ?_
    refine (congrArg _ (ix9_2_at p q)).trans ((rowSum _ p).trans ?_)
    refine Finset.sum_congr rfl fun r _ => ?_
    have hm := meanSpread (k0_pay2 (F := Ideal) P0 P1 P2 P3 P4 P5 P6) p r
    unfold mean64 at hm
    exact congrArg₂ (· * ·) (congrArg₂ (· - ·) rfl hm) (congrArg₂ (· - ·) rfl hm)
  · exact congrArg P7 (ix9_3_at p q)
  · exact congrArg P8 (ix9_4_at p q)

end Cert.KernelRow

end
-- ==== Proof.StartCol.lean ====
/-
  The start indices of the two row gathers, when every edge index names a row of the node table.

  Each endpoint's index row is cut out of the `[2, 500000]` edge index, negative entries are moved up by the table's
  100000 rows, and the result is laid out as a column of start indices. When every entry, read as a signed integer, is
  already in `[0, 100000)`, nothing is moved: the column holds the entries themselves, each in `[0, 99999]`.
-/
import proofs.«413892_j31224412242359_2_alg».proof.Proof.Gen.ReferenceIdeal.Read
import Idealize.ShloMosaic.Lib.Affine
import Idealize.ShloMosaic.Lib.ValueIdx

noncomputable section

namespace Cert.StartCol

open Cert.ReferenceIdeal Cert.ReferenceIdeal.Read Idealize.ShloMosaic Idealize.ShloMosaic.ValueIdx

/-- Every entry of the edge index, read signed, names a row of the node table. -/
def IndexInRange (x1 : S2x500000.Idx → BitVec 32) : Prop :=
  ∀ j : S2x500000.Idx, 0 ≤ (x1 j).toInt ∧ (x1 j).toInt < 100000

theorem toInt_zero32 : (0#32 : BitVec 32).toInt = 0 := by decide
theorem toInt_top32 : (99999#32 : BitVec 32).toInt = 99999 := by decide

/-- A nonnegative word is left where it is by the wrap of negative indices. -/
theorem wrap_id (w : BitVec 32) (h0 : 0 ≤ w.toInt) :
    Scalar.select (IntOp.cmpi .slt w 0#32) (IntOp.addi w 100000#32) w = w := by
  have hn : ¬IntOp.cmpi .slt w 0#32 = 1#1 := by
    rw [IntOp.cmpi_slt, toInt_zero32]
    omega
  rw [eq_zero_of_ne_one hn]
  exact select_zero _ _

/-- The destination endpoint's start column holds the second row of the edge index. -/
theorem dst_start (x1 : S2x500000.Idx → BitVec 32) (h : IndexInRange x1) (i : S500000x1.Idx) :
    val_main_v9 (F := Ideal) x1 i = x1 (idx_main_v2 (idx_main_v3 (idx_main_v9 i))) := by
  rw [val_main_v9_apply, val_main_v8_apply, val_main_v5_apply, val_main_v7_apply, val_main_v4_apply, val_main_c_apply,
    val_main_v6_apply, val_main_c_0_apply, val_main_v3_apply, val_main_v2_apply]
  exact wrap_id _ (h _).1

/-- The source endpoint's start column holds the first row of the edge index. -/
theorem src_start (x1 : S2x500000.Idx → BitVec 32) (h : IndexInRange x1) (i : S500000x1.Idx) :
    val_main_v16 (F := Ideal) x1 i = x1 (idx_main_v0 (idx_main_v1 (idx_main_v16 i))) := by
  rw [val_main_v16_apply, val_main_v15_apply, val_main_v12_apply, val_main_v14_apply, val_main_v11_apply, val_main_c_1_apply,
    val_main_v13_apply, val_main_c_2_apply, val_main_v1_apply, val_main_v0_apply]
  exact wrap_id _ (h _).1

/-- Both start columns lie in the table. -/
theorem dst_inRange (x1 : S2x500000.Idx → BitVec 32) (h : IndexInRange x1) (i : S500000x1.Idx) :
    0 ≤ (val_main_v9 (F := Ideal) x1 i).toInt ∧ (val_main_v9 (F := Ideal) x1 i).toInt ≤ 99999 := by
  rw [dst_start x1 h i]
  have := h (idx_main_v2 (idx_main_v3 (idx_main_v9 i)))
  omega

theorem src_inRange (x1 : S2x500000.Idx → BitVec 32) (h : IndexInRange x1) (i : S500000x1.Idx) :
    0 ≤ (val_main_v16 (F := Ideal) x1 i).toInt ∧ (val_main_v16 (F := Ideal) x1 i).toInt ≤ 99999 := by
  rw [src_start x1 h i]
  have := h (idx_main_v0 (idx_main_v1 (idx_main_v16 i)))
  omega

end Cert.StartCol

end
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.KernelHost.lean ====
/-
  The arrays the kernel's region finds, as functions of the program's arguments.

  Before the region the program gathers the two endpoint rows of every edge with a fill-mode take: the index is wrapped,
  the rows are gathered, and a row whose wrapped index falls outside the table is replaced by a fill word. When every
  edge index names a row of the table no row is replaced, and each gathered array is the plain gather of the wrapped
  indices, the same array the reference gathers. The weights are narrowed (the identity on extended reals) and the
  bias, gain and offset vectors are laid out as one-row matrices.
-/
import proofs.«413892_j31224412242359_2_alg».proof.Proof.Gen.KernelIdeal.Frame
import proofs.«413892_j31224412242359_2_alg».proof.Proof.StartCol
import proofs.«413892_j31224412242359_2_alg».proof.Proof.LibTRef
import proofs.«413892_j31224412242359_2_alg».proof.Proof.LibAllOnes
import Idealize.ShloMosaic.Lib.StableHlo.Run
import Idealize.ShloMosaic.Lib.Pipeline.Value
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx

/-! ## The fill-mode take -/

/-- The column of zero words and the column of the table's last row number. -/
abbrev zeroCol : IVec S500000x1 32 := broadcastInDim S500000x1 ![] bcast_S_S500000x1 (constantI S_ 32 0#32)
abbrev topCol : IVec S500000x1 32 :=
  broadcastInDim S500000x1 ![0, 1] bcast_S1x1_S500000x1_0_1 (broadcastInDim S1x1 ![1] bcast_S1_S1x1_1 (constantI S1 32 99999#32))

/-- Where a column of start indices lies in the table: `0 ≤ w ≤ 99999`, signed. -/
def inTable (W : IVec S500000x1 32) : IVec S500000x1 1 := andi (cmpi .sge W zeroCol) (cmpi .sle W topCol)

/-- The take: the gathered rows `T` where the start index lies in the table, the fill word elsewhere. -/
def takeFill (W : IVec S500000x1 32) (T : FVec Ideal S500000x128 .f32) : FVec Ideal S500000x128 .f32 :=
  select (broadcastInDim S500000x128 ![0] bcast_S500000_S500000x128_0
      (Host.reduce IntOp.andi (inTable W) (constantI S_ 1 1#1) reducesTo_S500000x1_S500000_d1 h_S_))
    T (broadcastInDim S500000x128 ![] bcast_S_S500000x128 (constant (F := Ideal) S_ .f32 0x7FC00000#32))

theorem inTable_all (W : IVec S500000x1 32) (hW : ∀ i, 0 ≤ (W i).toInt ∧ (W i).toInt ≤ 99999) (k : S500000x1.Idx) :
    inTable W k = 1#1 := by
  show IntOp.andi (IntOp.cmpi .sge (W k) 0#32) (IntOp.cmpi .sle (W k) 99999#32) = 1#1
  rw [IntOp.andi_eq_one, IntOp.cmpi_sge, IntOp.cmpi_sle, StartCol.toInt_zero32, StartCol.toInt_top32]
  exact hW k

/-- With every start index in the table the take keeps every gathered row. -/
theorem takeFill_eq (W : IVec S500000x1 32) (T : FVec Ideal S500000x128 .f32)
    (hW : ∀ i, 0 ≤ (W i).toInt ∧ (W i).toInt ≤ 99999) : takeFill W T = T := by
  funext i
  unfold takeFill
  rw [select_apply]
  have hb : broadcastInDim S500000x128 ![0] bcast_S500000_S500000x128_0
      (Host.reduce IntOp.andi (inTable W) (constantI S_ 1 1#1) reducesTo_S500000x1_S500000_d1 h_S_) i = 1#1 := by
    unfold broadcastInDim
    exact LibAllOnes.reduce_andi_of_all (inTable W) _ _ _ _ rfl (inTable_all W hW)
  rw [hb]
  exact select_one _ _

/-! ## The arrays at the region's entry -/

variable (m : (ℓ : Loc nD τ sig) → Buf (Elt Ideal) ℓ) (c : Dev nD)

/-- The program's arguments on core `c`. -/
abbrev A0 : S100000x128.Idx → EReal := m ((c : Thread nD τ).loc main_arg0)
abbrev A1 : S2x500000.Idx → BitVec 32 := m ((c : Thread nD τ).loc main_arg1)
abbrev A2 : S500000x64.Idx → EReal := m ((c : Thread nD τ).loc main_arg2)
abbrev A3 : S320x256.Idx → EReal := m ((c : Thread nD τ).loc main_arg3)
abbrev A4 : S256.Idx → EReal := m ((c : Thread nD τ).loc main_arg4)
abbrev A5 : S256x64.Idx → EReal := m ((c : Thread nD τ).loc main_arg5)
abbrev A6 : S64.Idx → EReal := m ((c : Thread nD τ).loc main_arg6)
abbrev A7 : S64.Idx → EReal := m ((c : Thread nD τ).loc main_arg7)
abbrev A8 : S64.Idx → EReal := m ((c : Thread nD τ).loc main_arg8)

set_option maxHeartbeats 4000000 in
/-- The destination endpoints' rows, as the region finds them: the take of the wrapped second index row. -/
theorem V_v4_take : (V m c main_v4 : S500000x128.Idx → EReal)
    = takeFill (Cert.ReferenceIdeal.Read.val_main_v9 (F := Ideal) (A1 m c))
        (Cert.ReferenceIdeal.Read.val_main_v10 (F := Ideal) (A0 m c) (A1 m c)) := by
  dsimp only [V]
  simp only [hostOps0, hostOps0_1, hostOps0_2, hostOps0_3, List.flatten_cons, List.flatten_nil, List.append_nil, List.cons_append,
    List.nil_append]
  after_results_simp
  -- the carriers between a buffer's type and its value's are the identity at these literal buffers
  have c1 : ∀ v : (⟨S500000x128, .f32⟩ : BufTy).Contents (Elt Ideal),
      (TRef.of main_v4 : TRef sig ⟨S500000x128, .f32⟩).toBuf v = v := fun _ => rfl
  have c2 : ∀ u : (⟨S500000, .i32⟩ : BufTy).Contents (Elt Ideal),
      (TRef.of main_v3 : TRef sig ⟨S500000, .i32⟩).ofBuf u = u := fun _ => rfl
  have c3 : ∀ u : (⟨S100000x128, .f32⟩ : BufTy).Contents (Elt Ideal),
      (TRef.of main_arg0 : TRef sig ⟨S100000x128, .f32⟩).ofBuf u = u := fun _ => rfl
  simp only [Cert.LibTRef.ofBuf_toBuf, c1, c2, c3]
  rfl

set_option maxHeartbeats 4000000 in
/-- The source endpoints' rows: the take of the wrapped first index row. -/
theorem V_v5_take : (V m c main_v5 : S500000x128.Idx → EReal)
    = takeFill (Cert.ReferenceIdeal.Read.val_main_v16 (F := Ideal) (A1 m c))
        (Cert.ReferenceIdeal.Read.val_main_v17 (F := Ideal) (A0 m c) (A1 m c)) := by
  dsimp only [V]
  simp only [hostOps0, hostOps0_1, hostOps0_2, hostOps0_3, List.flatten_cons, List.flatten_nil, List.append_nil, List.cons_append,
    List.nil_append]
  after_results_simp
  -- the carriers between a buffer's type and its value's are the identity at these literal buffers
  have c1 : ∀ v : (⟨S500000x128, .f32⟩ : BufTy).Contents (Elt Ideal),
      (TRef.of main_v5 : TRef sig ⟨S500000x128, .f32⟩).toBuf v = v := fun _ => rfl
  have c2 : ∀ u : (⟨S500000, .i32⟩ : BufTy).Contents (Elt Ideal),
      (TRef.of main_v1 : TRef sig ⟨S500000, .i32⟩).ofBuf u = u := fun _ => rfl
  have c3 : ∀ u : (⟨S100000x128, .f32⟩ : BufTy).Contents (Elt Ideal),
      (TRef.of main_arg0 : TRef sig ⟨S100000x128, .f32⟩).ofBuf u = u := fun _ => rfl
  simp only [Cert.LibTRef.ofBuf_toBuf, c1, c2, c3]
  rfl

/-- With the edge index in range, both are the plain gathers. -/
theorem V_v4 (h : StartCol.IndexInRange (A1 m c)) : (V m c main_v4 : S500000x128.Idx → EReal)
    = Cert.ReferenceIdeal.Read.val_main_v10 (F := Ideal) (A0 m c) (A1 m c) := by
  rw [V_v4_take]
  exact takeFill_eq _ _ (StartCol.dst_inRange _ h)

theorem V_v5 (h : StartCol.IndexInRange (A1 m c)) : (V m c main_v5 : S500000x128.Idx → EReal)
    = Cert.ReferenceIdeal.Read.val_main_v17 (F := Ideal) (A0 m c) (A1 m c) := by
  rw [V_v5_take]
  exact takeFill_eq _ _ (StartCol.src_inRange _ h)

set_option maxHeartbeats 4000000 in
/-- The narrowed weight matrices are the weight matrices. -/
theorem V_v6 : (V m c main_v6 : S320x256.Idx → EReal) = A3 m c := by
  dsimp only [V]
  simp only [hostOps0, hostOps0_1, hostOps0_2, hostOps0_3, List.flatten_cons, List.flatten_nil, List.append_nil, List.cons_append,
    List.nil_append]
  after_results_simp
  rfl

set_option maxHeartbeats 4000000 in
theorem V_v7 : (V m c main_v7 : S256x64.Idx → EReal) = A5 m c := by
  dsimp only [V]
  simp only [hostOps0, hostOps0_1, hostOps0_2, hostOps0_3, List.flatten_cons, List.flatten_nil, List.append_nil, List.cons_append,
    List.nil_append]
  after_results_simp
  rfl

set_option maxHeartbeats 4000000 in
/-- The bias, gain and offset vectors as one-row matrices. -/
theorem V_v8 : (V m c main_v8 : S1x256.Idx → EReal) = shapeCast S1x256 (A4 m c) shapeCasts_S256_S1x256 := by
  dsimp only [V]
  simp only [hostOps0, hostOps0_1, hostOps0_2, hostOps0_3, List.flatten_cons, List.flatten_nil, List.append_nil, List.cons_append,
    List.nil_append]
  after_results_simp
  rfl

set_option maxHeartbeats 4000000 in
theorem V_v9 : (V m c main_v9 : S1x64.Idx → EReal) = shapeCast S1x64 (A6 m c) shapeCasts_S64_S1x64 := by
  dsimp only [V]
  simp only [hostOps0, hostOps0_1, hostOps0_2, hostOps0_3, List.flatten_cons, List.flatten_nil, List.append_nil, List.cons_append,
    List.nil_append]
  after_results_simp
  rfl

set_option maxHeartbeats 4000000 in
theorem V_v10 : (V m c main_v10 : S1x64.Idx → EReal) = shapeCast S1x64 (A7 m c) shapeCasts_S64_S1x64 := by
  dsimp only [V]
  simp only [hostOps0, hostOps0_1, hostOps0_2, hostOps0_3, List.flatten_cons, List.flatten_nil, List.append_nil, List.cons_append,
    List.nil_append]
  after_results_simp
  rfl

set_option maxHeartbeats 4000000 in
theorem V_v11 : (V m c main_v11 : S1x64.Idx → EReal) = shapeCast S1x64 (A8 m c) shapeCasts_S64_S1x64 := by
  dsimp only [V]
  simp only [hostOps0, hostOps0_1, hostOps0_2, hostOps0_3, List.flatten_cons, List.flatten_nil, List.append_nil, List.cons_append,
    List.nil_append]
  after_results_simp
  rfl

/-- A length-`n` vector laid out as one row, read at `(0, j)`. -/
theorem oneRow_apply {n : Nat} (x : (⟨1, ![n]⟩ : Shape).Idx → EReal) (h : (⟨1, ![n]⟩ : Shape).ShapeCasts ⟨2, ![1, n]⟩)
    (z : Fin 1) (j : Fin n) : shapeCast ⟨2, ![1, n]⟩ x h (ix2 z j) = x (ix1 j) := by
  refine shapeCast_apply x h (ix2 z j) (ix1 j) ?_
  rw [Shape.rowMajor_val_one, Shape.rowMajor_val_two]
  have hz : z.val = 0 := by omega
  show j.val = z.val * n + j.val
  rw [hz]; omega

end Cert.KernelHost

end
-- ==== Proof.KernelBlocks.lean ====
/-
  The kernel's windows over its 100 grid points: where each block lies in its array.

  The three streamed inputs and the output take rows `5000·t … 5000·t + 4999` at point `t`; the weights and the one-row
  vectors are staged whole at every point. Each window's block at a point, read at an entry, is its array at the
  corresponding entry.
-/
import proofs.«413892_j31224412242359_2_alg».proof.Proof.Gen.KernelIdeal.Value
import proofs.«413892_j31224412242359_2_alg».proof.Proof.KernelHost

set_option maxRecDepth 16384

noncomputable section

namespace Cert.KernelBlocks

open Cert.KernelIdeal Cert.KernelIdeal.Gen Cert.KernelIdeal.Value Idealize.ShloMosaic Idealize.ShloMosaic.TcCoe Idealize.SL.Sem
open Idealize.ShloMosaic.ValueIdx Cert.KernelHost
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The printed index maps over the 100 grid points: the three streamed inputs and the output move with the point along
    the rows; the weights and the one-row vectors stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 ∧ True :=
  (by decide +kernel : ∀ t : Fin grid0.N, _)

/-- The edge that row `p` of grid point `t`'s blocks holds. -/
def edgeOf (t : Fin cfg0.N) (p : Fin 5000) : Fin 500000 :=
  ⟨5000 * t.val + p.val, by have h1 := t.isLt; have h2 : cfg0.N = 100 := N_0; have h3 := p.isLt; omega⟩

/-! ## Each window's block at a point, read off its array -/

theorem blk0 (t : Fin cfg0.N) (p : Fin 5000) (k : Fin 128) :
    (iblk m c 0 t : FVec Ideal S5000x128 .f32) (ix2 p k)
      = (V m c main_v4 : S500000x128.Idx → EReal) (ix2 (edgeOf t p) k) := by
  have e0 : win0_0.index t (0 : Fin 2) = t.val := (idx_facts t).1
  have e1 : win0_0.index t (1 : Fin 2) = 0 := (idx_facts t).2.1
  show V m c main_v4 (((cfg0.win 0).blk t).view.emb (ix2 p k)) = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem blk1 (t : Fin cfg0.N) (p : Fin 5000) (k : Fin 128) :
    (iblk m c 1 t : FVec Ideal S5000x128 .f32) (ix2 p k)
      = (V m c main_v5 : S500000x128.Idx → EReal) (ix2 (edgeOf t p) k) := by
  have e0 : win0_1.index t (0 : Fin 2) = t.val := (idx_facts t).2.2.1
  have e1 : win0_1.index t (1 : Fin 2) = 0 := (idx_facts t).2.2.2.1
  show V m c main_v5 (((cfg0.win 1).blk t).view.emb (ix2 p k)) = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

theorem blk2 (t : Fin cfg0.N) (p : Fin 5000) (k : Fin 64) :
    (iblk m c 2 t : FVec Ideal S5000x64 .f32) (ix2 p k)
      = (V m c main_arg2 : S500000x64.Idx → EReal) (ix2 (edgeOf t p) k) := by
  have e0 : win0_2.index t (0 : Fin 2) = t.val := (idx_facts t).2.2.2.2.1
  have e1 : win0_2.index t (1 : Fin 2) = 0 := (idx_facts t).2.2.2.2.2.1
  show V m c main_arg2 (((cfg0.win 2).blk t).view.emb (ix2 p k)) = _
  refine congrArg _ (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 64 + 1 * k.val = k.val; rw [e1]; omega

theorem blk3 (t : Fin cfg0.N) (p : Fin 320) (k : Fin 256) :
    (iblk m c 3 t : FVec Ideal S320x256 .bf16) (ix2 p k)
      = (V m c main_v6 : S320x256.Idx → EReal) (ix2 p k) := by
  have e0 : win0_3.index t (0 : Fin 2) = 0 := (idx_facts t).2.2.2.2.2.2.1
  have e1 : win0_3.index t (1 : Fin 2) = 0 := (idx_facts t).2.2.2.2.2.2.2.1
  show V m c main_v6 (((cfg0.win 3).blk t).view.emb (ix2 p k)) = _
  refine congrArg _ (funext fun a => Fin.ext ?_)
  match a with
  | ⟨0, _⟩ => show win0_3.index t (0 : Fin 2) * 320 + 1 * p.val = p.val; rw [e0]; omega
  | ⟨1, _⟩ => show win0_3.index t (1 : Fin 2) * 256 + 1 * k.val = k.val; rw [e1]; omega

theorem blk4 (t : Fin cfg0.N) (p : Fin 1) (k : Fin 256) :
    (iblk m c 4 t : FVec Ideal S1x256 .f32) (ix2 p k)
      = (V m c main_v8 : S1x256.Idx → EReal) (ix2 p k) := by
  have e0 : win0_4.index t (0 : Fin 2) = 0 := (idx_facts t).2.2.2.2.2.2.2.2.1
  have e1 : win0_4.index t (1 : Fin 2) = 0 := (idx_facts t).2.2.2.2.2.2.2.2.2.1
  show V m c main_v8 (((cfg0.win 4).blk t).view.emb (ix2 p k)) = _
  refine congrArg _ (funext fun a => Fin.ext ?_)
  match a with
  | ⟨0, _⟩ => show win0_4.index t (0 : Fin 2) * 1 + 1 * p.val = p.val; rw [e0]; omega
  | ⟨1, _⟩ => show win0_4.index t (1 : Fin 2) * 256 + 1 * k.val = k.val; rw [e1]; omega

theorem blk5 (t : Fin cfg0.N) (p : Fin 256) (k : Fin 64) :
    (iblk m c 5 t : FVec Ideal S256x64 .bf16) (ix2 p k)
      = (V m c main_v7 : S256x64.Idx → EReal) (ix2 p k) := by
  have e0 : win0_5.index t (0 : Fin 2) = 0 := (idx_facts t).2.2.2.2.2.2.2.2.2.2.1
  have e1 : win0_5.index t (1 : Fin 2) = 0 := (idx_facts t).2.2.2.2.2.2.2.2.2.2.2.1
  show V m c main_v7 (((cfg0.win 5).blk t).view.emb (ix2 p k)) = _
  refine congrArg _ (funext fun a => Fin.ext ?_)
  match a with
  | ⟨0, _⟩ => show win0_5.index t (0 : Fin 2) * 256 + 1 * p.val = p.val; rw [e0]; omega
  | ⟨1, _⟩ => show win0_5.index t (1 : Fin 2) * 64 + 1 * k.val = k.val; rw [e1]; omega

theorem blk6 (t : Fin cfg0.N) (p : Fin 1) (k : Fin 64) :
    (iblk m c 6 t : FVec Ideal S1x64 .f32) (ix2 p k)
      = (V m c main_v9 : S1x64.Idx → EReal) (ix2 p k) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  show V m c main_v9 (((cfg0.win 6).blk t).view.emb (ix2 p k)) = _
  refine congrArg _ (funext fun a => Fin.ext ?_)
  match a with
  | ⟨0, _⟩ => show win0_6.index t (0 : Fin 2) * 1 + 1 * p.val = p.val; rw [e0]; omega
  | ⟨1, _⟩ => show win0_6.index t (1 : Fin 2) * 64 + 1 * k.val = k.val; rw [e1]; omega

theorem blk7 (t : Fin cfg0.N) (p : Fin 1) (k : Fin 64) :
    (iblk m c 7 t : FVec Ideal S1x64 .f32) (ix2 p k)
      = (V m c main_v10 : S1x64.Idx → EReal) (ix2 p k) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  show V m c main_v10 (((cfg0.win 7).blk t).view.emb (ix2 p k)) = _
  refine congrArg _ (funext fun a => Fin.ext ?_)
  match a with
  | ⟨0, _⟩ => show win0_7.index t (0 : Fin 2) * 1 + 1 * p.val = p.val; rw [e0]; omega
  | ⟨1, _⟩ => show win0_7.index t (1 : Fin 2) * 64 + 1 * k.val = k.val; rw [e1]; omega

theorem blk8 (t : Fin cfg0.N) (p : Fin 1) (k : Fin 64) :
    (iblk m c 8 t : FVec Ideal S1x64 .f32) (ix2 p k)
      = (V m c main_v11 : S1x64.Idx → EReal) (ix2 p k) := by
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  show V m c main_v11 (((cfg0.win 8).blk t).view.emb (ix2 p k)) = _
  refine congrArg _ (funext fun a => Fin.ext ?_)
  match a with
  | ⟨0, _⟩ => show win0_8.index t (0 : Fin 2) * 1 + 1 * p.val = p.val; rw [e0]; omega
  | ⟨1, _⟩ => show win0_8.index t (1 : Fin 2) * 64 + 1 * k.val = k.val; rw [e1]; omega

end Cert.KernelBlocks

end
-- ==== Proof.KernelValue.lean ====
/-
  From blocks to the array: what the kernel's result array holds after the run.

  Grid point `t` of 100 stages rows `5000·t … 5000·t + 4999` of the two gathered arrays and of the edge array, and the
  whole of the weights, runs the body, and writes its block back to the same rows of the result. Row `p` of block `t` is
  edge `5000·t + p`, so by the body's reading (`Cert.KernelRow.E9_apply`) the block written back is the restriction of
  ONE whole-array function, the layer's output of every edge's data (`Cert.RefRow.layerOut`), to those rows; the 100
  blocks cover the array; so the array ends holding that function.
-/
import proofs.«413892_j31224412242359_2_alg».proof.Proof.Gen.KernelIdeal.Value
import proofs.«413892_j31224412242359_2_alg».proof.Proof.KernelRow
import proofs.«413892_j31224412242359_2_alg».proof.Proof.KernelHost
import proofs.«413892_j31224412242359_2_alg».proof.Proof.KernelBlocks
import proofs.«413892_j31224412242359_2_alg».proof.Proof.RefRow

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.EdgeRow Cert.KernelHost Cert.KernelBlocks
open Idealize.ShloMosaic.Pipeline (Dat)

variable (m : (ℓ : Loc nD τ sig) → Buf (Elt Ideal) ℓ) (ρ : Dev nD → PrngReg) (c : Dev nD)

/-! ## What a point writes back, the cover, the array -/

/-- The layer's output array of the program's arguments on core `c`. -/
abbrev result : S500000x64.Idx → EReal :=
  Cert.RefRow.layerOut (A0 m c) (A1 m c) (A2 m c) (A3 m c) (A4 m c) (A5 m c) (A6 m c) (A7 m c) (A8 m c)

/-- WHAT POINT `t` WRITES BACK is block `t` of the layer's output array, when the edge index is in range. -/
theorem flushed_eq (h : StartCol.IndexInRange (A1 m c)) (t : Fin cfg0.N) :
    (dats m 0 c).flushed 9 t = ((cfg0.win 9).blk t).view.read (Elt Ideal) (result m c) := by
  rw [flushed9]
  unfold out0_9
  funext y
  obtain ⟨p, q, rfl⟩ : ∃ (p : Fin 5000) (q : Fin 64), y = ix2 p q := ⟨y 0, y 1, eq_ix2 y⟩
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2.1
  have hi : ((cfg0.win 9).blk t).view.emb (ix2 p q) = ix2 (edgeOf t p) q := by
    funext a; apply Fin.ext
    match a with
    | ⟨0, _⟩ => show win0_9.index t (0 : Fin 2) * 5000 + 1 * p.val = 5000 * t.val + p.val; rw [e0]; omega
    | ⟨1, _⟩ => show win0_9.index t (1 : Fin 2) * 64 + 1 * q.val = q.val; rw [e1]; omega
  refine (canon9_eq (F := Ideal) _ _ _ _ _ _ _ _ _ (ix2 p q)).trans ?_
  refine (Cert.KernelRow.E9_apply _ _ _ _ _ _ _ _ _ p q).trans ?_
  show _ = result m c (((cfg0.win 9).blk t).view.emb (ix2 p q))
  rw [hi]
  -- each argument of the layer's output function: the block's row is the array's row of that edge
  have f0 : (fun k : Fin 128 => View.ld (Val := Elt Ideal) (S := S5000x128) (e' := .f32) (iblk m c 0 t) r0_0 (ix2 p k))
      = fun k => Cert.ReferenceIdeal.Read.val_main_v10 (F := Ideal) (A0 m c) (A1 m c) (ix2 (edgeOf t p) k) :=
    funext fun k => (congrFun (View.ld_unit_zero (Val := Elt Ideal) (S := S5000x128) (e := .f32) hz inb_S5000x128_S5000x128_0_0 (iblk m c 0 t : S5000x128.Idx → Elt Ideal .f32)) _).trans
      ((blk0 m c t p k).trans (congrFun (V_v4 m c h) _))
  have f1 : (fun k : Fin 128 => View.ld (Val := Elt Ideal) (S := S5000x128) (e' := .f32) (iblk m c 1 t) r0_0 (ix2 p k))
      = fun k => Cert.ReferenceIdeal.Read.val_main_v17 (F := Ideal) (A0 m c) (A1 m c) (ix2 (edgeOf t p) k) :=
    funext fun k => (congrFun (View.ld_unit_zero (Val := Elt Ideal) (S := S5000x128) (e := .f32) hz inb_S5000x128_S5000x128_0_0 (iblk m c 1 t : S5000x128.Idx → Elt Ideal .f32)) _).trans
      ((blk1 m c t p k).trans (congrFun (V_v5 m c h) _))
  have f2 : (fun k : Fin 64 => View.ld (Val := Elt Ideal) (S := S5000x64) (e' := .f32) (iblk m c 2 t) r0_1 (ix2 p k))
      = fun k => A2 m c (ix2 (edgeOf t p) k) :=
    funext fun k => (congrFun (View.ld_unit_zero (Val := Elt Ideal) (S := S5000x64) (e := .f32) hz inb_S5000x64_S5000x64_0_0 (iblk m c 2 t : S5000x64.Idx → Elt Ideal .f32)) _).trans
      ((blk2 m c t p k).trans (congrFun (V_main_arg2 m c) _))
  have f3 : (fun (k : Fin 320) (j : Fin 256) => View.ld (Val := Elt Ideal) (S := S320x256) (e' := .bf16) (iblk m c 3 t) r0_2 (ix2 k j))
      = fun k j => A3 m c (ix2 k j) :=
    funext fun k => funext fun j => (congrFun (View.ld_unit_zero (Val := Elt Ideal) (S := S320x256) (e := .bf16) hz inb_S320x256_S320x256_0_0 (iblk m c 3 t : S320x256.Idx → Elt Ideal .bf16)) _).trans
      ((blk3 m c t k j).trans (congrFun (V_v6 m c) _))
  have f4 : (fun j : Fin 256 => View.ld (Val := Elt Ideal) (S := S1x256) (e' := .f32) (iblk m c 4 t) r0_3 (ix2 0 j))
      = fun j => A4 m c (ix1 j) :=
    funext fun j => (congrFun (View.ld_unit_zero (Val := Elt Ideal) (S := S1x256) (e := .f32) hz inb_S1x256_S1x256_0_0 (iblk m c 4 t : S1x256.Idx → Elt Ideal .f32)) _).trans
      ((blk4 m c t 0 j).trans ((congrFun (V_v8 m c) _).trans (oneRow_apply _ _ 0 j)))
  have f5 : (fun (j : Fin 256) (k : Fin 64) => View.ld (Val := Elt Ideal) (S := S256x64) (e' := .bf16) (iblk m c 5 t) r0_4 (ix2 j k))
      = fun j k => A5 m c (ix2 j k) :=
    funext fun j => funext fun k => (congrFun (View.ld_unit_zero (Val := Elt Ideal) (S := S256x64) (e := .bf16) hz inb_S256x64_S256x64_0_0 (iblk m c 5 t : S256x64.Idx → Elt Ideal .bf16)) _).trans
      ((blk5 m c t j k).trans (congrFun (V_v7 m c) _))
  have f6 : (fun k : Fin 64 => View.ld (Val := Elt Ideal) (S := S1x64) (e' := .f32) (iblk m c 6 t) r0_5 (ix2 0 k))
      = fun k => A6 m c (ix1 k) :=
    funext fun k => (congrFun (View.ld_unit_zero (Val := Elt Ideal) (S := S1x64) (e := .f32) hz inb_S1x64_S1x64_0_0 (iblk m c 6 t : S1x64.Idx → Elt Ideal .f32)) _).trans
      ((blk6 m c t 0 k).trans ((congrFun (V_v9 m c) _).trans (oneRow_apply _ _ 0 k)))
  have f7 : (fun k : Fin 64 => View.ld (Val := Elt Ideal) (S := S1x64) (e' := .f32) (iblk m c 7 t) r0_5 (ix2 0 k))
      = fun k => A7 m c (ix1 k) :=
    funext fun k => (congrFun (View.ld_unit_zero (Val := Elt Ideal) (S := S1x64) (e := .f32) hz inb_S1x64_S1x64_0_0 (iblk m c 7 t : S1x64.Idx → Elt Ideal .f32)) _).trans
      ((blk7 m c t 0 k).trans ((congrFun (V_v10 m c) _).trans (oneRow_apply _ _ 0 k)))
  have f8 : (fun k : Fin 64 => View.ld (Val := Elt Ideal) (S := S1x64) (e' := .f32) (iblk m c 8 t) r0_5 (ix2 0 k))
      = fun k => A8 m c (ix1 k) :=
    funext fun k => (congrFun (View.ld_unit_zero (Val := Elt Ideal) (S := S1x64) (e := .f32) hz inb_S1x64_S1x64_0_0 (iblk m c 8 t : S1x64.Idx → Elt Ideal .f32)) _).trans
      ((blk8 m c t 0 k).trans ((congrFun (V_v11 m c) _).trans (oneRow_apply _ _ 0 k)))
  rw [f0, f1, f2, f3, f4, f5, f6, f7, f8]
  rfl

/-- Every index of the result array lies in some point's block. -/
theorem cover (i : S500000x64.Idx) : ∃ t : Fin cfg0.N, (cfg0.win 9).flush t = true ∧ i ∈ ((cfg0.win 9).blk t).view.set := by
  have hi0 : (i 0).val < 500000 := (i 0).isLt
  have hi1 : (i 1).val < 64 := (i 1).isLt
  have hN : cfg0.N = 100 := N_0
  let t : Fin cfg0.N := ⟨(i 0).val / 5000, by omega⟩
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2.1
  have ht : t.val = (i 0).val / 5000 := rfl
  refine ⟨t, flush0_9 t, ?_⟩
  show i ∈ ((View.whole main_v12).slice (win0_9.rect t)).set
  rw [View.set_slice_whole, Rect.mem_set_unit]
  intro a
  match a with
  | ⟨0, _⟩ =>
    show win0_9.index t (0 : Fin 2) * 5000 ≤ (i 0).val ∧ (i 0).val < win0_9.index t (0 : Fin 2) * 5000 + 5000
    rw [e0, ht]; omega
  | ⟨1, _⟩ =>
    show win0_9.index t (1 : Fin 2) * 64 ≤ (i 1).val ∧ (i 1).val < win0_9.index t (1 : Fin 2) * 64 + 64
    rw [e1]; omega

/-- THE ARRAY after the run is the layer's output array. -/
theorem final (h : StartCol.IndexInRange (A1 m c)) : (dats m 0 c).arrAt 9 cfg0.N = result m c :=
  (dats m 0 c).arrAt_eq_of_cover 9 (result m c) (fun t _ => flushed_eq m c h t) (cover)

/-- The kernel's run, read: the result array at the layer's output array, the arguments unchanged. -/
theorem run (h : ∀ c, StartCol.IndexInRange (A1 m c)) :
    θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r hr c => ⟨(hr c).1.trans (final m c (h c)), (hr c).2⟩) (run_blocks m ρ)

end Cert.KernelValue

end
-- ==== Proof.lean ====
/-
  An edge-update layer of a message-passing network: for each of 500000 edges, the rows of its two endpoint nodes are
  gathered from a `[100000, 128]` table, joined with the edge's own 64 features, sent through a two-layer perceptron
  with a rectifier, added back to the edge features and layer-normalised. The kernel gathers on the host with a fill-mode
  take and runs the rest on blocks of 5000 edges; the reference does all of it on whole arrays.

  Over the extended reals the two agree whenever every edge index names a row of the table (`0 ≤ index < 100000`, which
  the precondition states): then the take replaces no row, both programs gather the same rows, the narrowing of the
  matrix-unit operands is the identity, each product into a zero accumulator is the plain sum of products the
  reference's product is, and the row sums of the normalisation are the same sums. Block `t`, row `p` is edge
  `5000·t + p`; the 100 blocks cover the result. No law beyond reading both programs at an index is used, so the
  finiteness of the float inputs is never opened.

  The frames are the generated ones; the idealization rewrote nothing, so there is nothing to preserve.
-/
import proofs.«413892_j31224412242359_2_alg».proof.Defs
import proofs.«413892_j31224412242359_2_alg».proof.Proof.Gen.Kernel
import proofs.«413892_j31224412242359_2_alg».proof.Proof.Gen.Kernel.Skeleton
import proofs.«413892_j31224412242359_2_alg».proof.Proof.Gen.Kernel.Launch
import proofs.«413892_j31224412242359_2_alg».proof.Proof.Gen.Kernel.Points
import proofs.«413892_j31224412242359_2_alg».proof.Proof.Gen.Kernel.Frame
import proofs.«413892_j31224412242359_2_alg».proof.Proof.Gen.KernelIdeal
import proofs.«413892_j31224412242359_2_alg».proof.Proof.Gen.KernelIdeal.Skeleton
import proofs.«413892_j31224412242359_2_alg».proof.Proof.Gen.KernelIdeal.Launch
import proofs.«413892_j31224412242359_2_alg».proof.Proof.Gen.KernelIdeal.Points
import proofs.«413892_j31224412242359_2_alg».proof.Proof.Gen.KernelIdeal.Frame
import proofs.«413892_j31224412242359_2_alg».proof.Proof.Gen.ReferenceIdeal
import proofs.«413892_j31224412242359_2_alg».proof.Proof.Gen.Pre_finite_inputs
import proofs.«413892_j31224412242359_2_alg».proof.Proof.Gen.KernelIdeal.Value
import proofs.«413892_j31224412242359_2_alg».proof.Proof.Gen.ReferenceIdeal.Run
import proofs.«413892_j31224412242359_2_alg».proof.Proof.Gen.ReferenceIdeal.Read
import proofs.«413892_j31224412242359_2_alg».proof.Proof.InRange
import proofs.«413892_j31224412242359_2_alg».proof.Proof.RefRow
import proofs.«413892_j31224412242359_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer's output array of the arguments: the kernel's by its blocks, the
    reference's by its stages read at an index; the precondition gives the edge index in range. -/
theorem algebraic : Cert.algebraic_KernelIdeal_ReferenceIdeal := by
  intro m ρ m' ρ' hpre hagree
  have hin : ∀ c, Cert.StartCol.IndexInRange (Cert.KernelHost.A1 m c) := fun c j =>
    Cert.InRange.index_inRange _ _ _ _ _ _ _ _ _ (hpre c) j
  refine ⟨fun c => Cert.KernelValue.result m c, Cert.KernelValue.run m ρ hin, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v52_eq, h0, h1, h2, h3, h4, h5, h6, h7, h8]
  exact Cert.RefRow.ref_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
